-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x32 : Shape := ⟨2, ![800000, 32]⟩
abbrev S96x64 : Shape := ⟨2, ![96, 64]⟩
abbrev S64 : Shape := ⟨1, ![64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : FVec F S800000x32 .f32) (main_arg2 : FVec F S96x64 .f32) (main_arg3 : FVec F S64 .f32) (main_arg4 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S96x64 .f32 := Host.absf main_arg2
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S800000x32 : Shape := ⟨2, ![800000, 32]⟩
abbrev S96x64 : Shape := ⟨2, ![96, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S64x64 : Shape := ⟨2, ![64, 64]⟩
abbrev S32x64 : Shape := ⟨2, ![32, 64]⟩
abbrev S8000x64 : Shape := ⟨2, ![8000, 64]⟩
abbrev S8000x32 : Shape := ⟨2, ![8000, 32]⟩
abbrev S8000x1 : Shape := ⟨2, ![8000, 1]⟩
abbrev S1x64 : Shape := ⟨2, ![1, 64]⟩

abbrev nBuf : Space → Nat
  | .hbm => 66
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S96x64, .f32⟩
  | .hbm, ⟨3, _⟩ => ⟨S64, .f32⟩
  | .hbm, ⟨4, _⟩ => ⟨S2x800000, .i32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S800000x1, .f32⟩
  | .hbm, ⟨46, _⟩ => ⟨S50000x64, .bf16⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .bf16⟩
  | .hbm, ⟨56, _⟩ => ⟨S64x64, .f32⟩
  | .hbm, ⟨57, _⟩ => ⟨S32x64, .f32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .local _ .vmem, ⟨0, _⟩ => ⟨S8000x64, .bf16⟩
  | .local _ .vmem, ⟨1, _⟩ => ⟨S8000x64, .bf16⟩
  | .local _ .vmem, ⟨2, _⟩ => ⟨S8000x32, .f32⟩
  | .local _ .vmem, ⟨3, _⟩ => ⟨S8000x32, .f32⟩
  | .local _ .vmem, ⟨4, _⟩ => ⟨S8000x1, .f32⟩
  | .local _ .vmem, ⟨5, _⟩ => ⟨S8000x1, .f32⟩
  | .local _ .vmem, ⟨6, _⟩ => ⟨S64x64, .f32⟩
  | .local _ .vmem, ⟨7, _⟩ => ⟨S32x64, .f32⟩
  | .local _ .vmem, ⟨8, _⟩ => ⟨S8000x64, .f32⟩
  | .local _ .vmem, ⟨9, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S800000_S800000x1 : S800000.ShapeCasts S800000x1
  bitsLt_bf16_f32 : FTy.bits .bf16 < FTy.bits .f32
  slices_S96x64_S64x64_0_0 : S96x64.Slices ![0, 0] S64x64
  slices_S96x64_S32x64_64_0 : S96x64.Slices ![64, 0] S32x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x32_S8000x32_0_0 : ∀ a, (![0, 0] : Fin 2 → Nat) a + S8000x32.size a ≤ S8000x32.size a
  h_S8000x32 : 0 < S8000x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  dot_S8000x32_S32x64_S8000x64_1_0_0_1_n_n_wf : DotDims.WF S8000x32 S32x64 S8000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .bf16 = 32 ∨ (Rect.block (s := S800000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S800000x32.size a
  hwx0_1 : ∀ i : grid0.Coords, EltTy.bits .f32 = 32 ∨ (Rect.block (s := S800000x32) S8000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S800000x1.size a
  hwx0_2 : ∀ i : grid0.Coords, EltTy.bits .f32 = 32 ∨ (Rect.block (s := S800000x1) S8000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S800000x64.size a
  hwx0_5 : ∀ i : grid0.Coords, EltTy.bits .f32 = 32 ∨ (Rect.block (s := S800000x64) S8000x64.size (cc0_transform_5 i) (hinb0_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v37) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x32 : Shape := ⟨2, ![800000, 32]⟩
abbrev S96x64 : Shape := ⟨2, ![96, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S800000x96 : Shape := ⟨2, ![800000, 96]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S96x64, .f32⟩
  | .hbm, ⟨3, _⟩ => ⟨S64, .f32⟩
  | .hbm, ⟨4, _⟩ => ⟨S2x800000, .i32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S800000x96, .f32⟩
  | .hbm, ⟨56, _⟩ => ⟨S800000x64, .f32⟩
  | .hbm, ⟨57, _⟩ => ⟨S800000x1, .f32⟩
  | .hbm, ⟨58, _⟩ => ⟨S800000x64, .f32⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  dot_S800000x96_S96x64_S800000x64_1_0_0_1_n_n_wf : DotDims.WF S800000x96 S96x64 S800000x64 [1] [0] [0] [1] [] []
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelBlock.lean ====
/-
  What the kernel body stores, read at one entry. At a grid point the body holds a block of 8000 edges: the gathered
  node features `x` (8000 × 64), the edge attributes `e` (8000 × 32), the two row blocks `w₁` (64 × 64) and `w₂`
  (32 × 64) of the weight matrix, and the normalisation column `n` (8000 × 1). Over the extended reals, where a change
  of float format is the identity and a matrix product into a zero accumulator is the plain sum of products, the stored
  value at edge `p` and output feature `q` is

      (∑ k < 64, x[p, k] · w₁[k, q]  +  ∑ k < 32, e[p, k] · w₂[k, q]) · n[p, 0].
-/
import proofs.«120448_j62766652064045_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx

namespace Cert.KernelIdeal.Block

open Cert.KernelIdeal Cert.KernelIdeal.Gen

/-! ## The node-feature product: [8000, 64] × [64, 64] -/

theorem lhs_node_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_node_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_node_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_node_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The node-feature product into a zero accumulator, at edge `p` and output feature `q`: the sum over the 64 input
    features. -/
theorem node_product_apply (l : FVec Ideal S8000x64 .bf16) (r : FVec Ideal S64x64 .bf16) (p : Fin 8000) (q : Fin 64) :
    matmul dot_S8000x64_S64x64_S8000x64_1_0_0_1_n_n none l r (constant S8000x64 .f32 0x00000000#32) (ix2 p q)
      = ∑ k : Fin 64, l (ix2 p k) * r (ix2 k q) := by
  simp only [matmul]
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact lhs_node_0 _ _
    | ⟨1, _⟩ => exact (lhs_node_1 _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (rhs_node_0 _ _).trans hk
    | ⟨1, _⟩ => exact rhs_node_1 _ _)
  rw [el, er]

/-! ## The edge-attribute product: [8000, 32] × [32, 64] -/

theorem lhs_edge_0 (i : S8000x64.Idx) (q : dot_S8000x32_S32x64_S8000x64_1_0_0_1_n_n.contr.Idx) :
    (dot_S8000x32_S32x64_S8000x64_1_0_0_1_n_n.lhsIdx i q 0).val = (i 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl
theorem lhs_edge_1 (i : S8000x64.Idx) (q : dot_S8000x32_S32x64_S8000x64_1_0_0_1_n_n.contr.Idx) :
    (dot_S8000x32_S32x64_S8000x64_1_0_0_1_n_n.lhsIdx i q 1).val = (q ⟨0, by decide⟩).val :=
  dot_S8000x32_S32x64_S8000x64_1_0_0_1_n_n.lhsIdx_val_of_single rfl i q
theorem rhs_edge_0 (i : S8000x64.Idx) (q : dot_S8000x32_S32x64_S8000x64_1_0_0_1_n_n.contr.Idx) :
    (dot_S8000x32_S32x64_S8000x64_1_0_0_1_n_n.rhsIdx i q 0).val = (q ⟨0, by decide⟩).val :=
  dot_S8000x32_S32x64_S8000x64_1_0_0_1_n_n.rhsIdx_val_of_single rfl i q
theorem rhs_edge_1 (i : S8000x64.Idx) (q : dot_S8000x32_S32x64_S8000x64_1_0_0_1_n_n.contr.Idx) :
    (dot_S8000x32_S32x64_S8000x64_1_0_0_1_n_n.rhsIdx i q 1).val = (i 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl

/-- The edge-attribute product into a zero accumulator, at edge `p` and output feature `q`: the sum over the 32
    attributes. -/
theorem edge_product_apply (l : FVec Ideal S8000x32 .bf16) (r : FVec Ideal S32x64 .bf16) (p : Fin 8000) (q : Fin 64) :
    matmul dot_S8000x32_S32x64_S8000x64_1_0_0_1_n_n none l r (constant S8000x64 .f32 0x00000000#32) (ix2 p q)
      = ∑ k : Fin 32, l (ix2 p k) * r (ix2 k q) := by
  simp only [matmul]
  rw [Ideal.matmul_constant_zero_apply, ← Equiv.sum_comp (contrEquiv1 dot_S8000x32_S32x64_S8000x64_1_0_0_1_n_n 32 rfl rfl).symm]
  refine Finset.sum_congr rfl fun k _ => ?_
  have hk := contrEquiv1_symm_val dot_S8000x32_S32x64_S8000x64_1_0_0_1_n_n 32 rfl rfl k
  have el : dot_S8000x32_S32x64_S8000x64_1_0_0_1_n_n.lhsIdx (ix2 p q) ((contrEquiv1 dot_S8000x32_S32x64_S8000x64_1_0_0_1_n_n 32 rfl rfl).symm k) = ix2 p k := funext fun a => Fin.ext (by
    match a with
    | ⟨0, _⟩ => exact lhs_edge_0 _ _
    | ⟨1, _⟩ => exact (lhs_edge_1 _ _).trans hk)
  have er : dot_S8000x32_S32x64_S8000x64_1_0_0_1_n_n.rhsIdx (ix2 p q) ((contrEquiv1 dot_S8000x32_S32x64_S8000x64_1_0_0_1_n_n 32 rfl rfl).symm k) = ix2 k q := funext fun a => Fin.ext (by
    match a with
    | ⟨0, _⟩ => exact (rhs_edge_0 _ _).trans hk
    | ⟨1, _⟩ => exact rhs_edge_1 _ _)
  rw [el, er]

/-! ## The normalisation column spread over the 64 output features -/

/-- The column `n` broadcast to [8000, 64], at `(p, q)`, is `n[p, 0]`. -/
theorem norm_column_apply (n : FVec Ideal S8000x1 .f32) (p : Fin 8000) (q : Fin 64) :
    broadcastTo S8000x64 n broadcasts_S8000x1_S8000x64 (ix2 p q) = n (ix2 p (0 : Fin 1)) :=
  broadcastTo_apply n broadcasts_S8000x1_S8000x64 (ix2 p q) (ix2 p (0 : Fin 1)) (fun a => by
    match a with
    | ⟨0, _⟩ => show p.val = if (8000 : Nat) = 1 then 0 else p.val; rw [if_neg (by decide)]
    | ⟨1, _⟩ => show 0 = if (1 : Nat) = 1 then 0 else q.val; rw [if_pos rfl])

/-! ## The stored value -/

/-- The body's stored value at edge `p` of the block and output feature `q`. -/
theorem stored_apply (x : Vec Ideal S8000x64 .bf16) (e : Vec Ideal S8000x32 .f32) (w₁ : Vec Ideal S64x64 .f32)
    (w₂ : Vec Ideal S32x64 .f32) (n : Vec Ideal S8000x1 .f32) (p : Fin 8000) (q : Fin 64) :
    k0_pay1 (F := Ideal) x e w₁ w₂ n (ix2 p q)
      = (∑ k : Fin 64, x (ix2 p k) * w₁ (ix2 k q) + ∑ k : Fin 32, e (ix2 p k) * w₂ (ix2 k q)) * n (ix2 p (0 : Fin 1)) := by
  unfold k0_pay1
  simp only [shapeCast_self]
  show ((matmul (F := Ideal) dot_S8000x64_S64x64_S8000x64_1_0_0_1_n_n none x (truncf (F := Ideal) .bf16 w₁ bitsLt_bf16_f32) (constant (F := Ideal) S8000x64 .f32 0x00000000#32) (ix2 p q) : EReal)
      + (matmul (F := Ideal) dot_S8000x32_S32x64_S8000x64_1_0_0_1_n_n none (truncf (F := Ideal) .bf16 e bitsLt_bf16_f32) (truncf (F := Ideal) .bf16 w₂ bitsLt_bf16_f32) (constant (F := Ideal) S8000x64 .f32 0x00000000#32) (ix2 p q) : EReal))
      * (broadcastTo S8000x64 n broadcasts_S8000x1_S8000x64 (ix2 p q) : EReal) = _
  rw [node_product_apply, edge_product_apply, norm_column_apply]
  rfl

end Cert.KernelIdeal.Block

end
-- ==== Proof.Contraction.lean ====
/-
  The per-edge message of the graph convolution, as one function of five arrays, and the one identity of finite sums
  the comparison needs.

  For edge `e` and output feature `j`,

      M[e, j] = (∑ k < 64, X[e, k] · W₁[k, j]  +  ∑ k < 32, A[e, k] · W₂[k, j]) · N[e, 0],

  where `X` holds the source node's 64 features of every edge, `A` the edge's 32 attributes, `W₁` and `W₂` the first 64
  and the last 32 rows of the weight matrix, and `N` the normalisation column. Contracting the 96 joined features
  `[X[e, ·], A[e, ·]]` against the whole weight matrix is the same number: a finite sum over `Fin 96` splits at 64, and
  on the extended reals addition is commutative and associative, so the split needs no finiteness.
-/
import Mathlib.Algebra.BigOperators.Fin
import Mathlib.Data.EReal.Basic
import Idealize.ShloMosaic.Lib.ValueIdx

noncomputable section

namespace Cert.EdgeMessage

open Finset Idealize.ShloMosaic Idealize.ShloMosaic.ValueIdx

/-- A sum over the 96 joined features, split at feature 64. -/
theorem sum_split_64_32 {M : Type} [AddCommMonoid M] (f : Fin 96 → M) :
    ∑ k : Fin 96, f k
      = ∑ k : Fin 64, f ⟨k.val, by have := k.isLt; omega⟩ + ∑ k : Fin 32, f ⟨64 + k.val, by have := k.isLt; omega⟩ := by
  have h := Fin.sum_univ_add (a := 64) (b := 32) (f := fun k : Fin (64 + 32) => f ⟨k.val, k.isLt⟩)
  simpa using h

/-- The edge of an index of the message array, and its output feature. -/
abbrev edge (i : (⟨2, ![800000, 64]⟩ : Shape).Idx) : Fin 800000 := ⟨(i 0).val, (i 0).isLt⟩
abbrev feat (i : (⟨2, ![800000, 64]⟩ : Shape).Idx) : Fin 64 := ⟨(i 1).val, (i 1).isLt⟩

/-- The per-edge message. -/
def message (X : (⟨2, ![800000, 64]⟩ : Shape).Idx → EReal) (A : (⟨2, ![800000, 32]⟩ : Shape).Idx → EReal)
    (N : (⟨2, ![800000, 1]⟩ : Shape).Idx → EReal) (W₁ : (⟨2, ![64, 64]⟩ : Shape).Idx → EReal)
    (W₂ : (⟨2, ![32, 64]⟩ : Shape).Idx → EReal) : (⟨2, ![800000, 64]⟩ : Shape).Idx → EReal := fun i =>
  (∑ k : Fin 64, X (ix2 (edge i) k) * W₁ (ix2 k (feat i)) + ∑ k : Fin 32, A (ix2 (edge i) k) * W₂ (ix2 k (feat i)))
    * N (ix2 (edge i) (0 : Fin 1))

end Cert.EdgeMessage

end
-- ==== Proof.KernelArray.lean ====
/-
  From the blocks to the array. The grid has 100 points; point `t` reads rows `8000·t … 8000·t + 7999` of the three
  edge-indexed arrays (the gathered node features, the edge attributes, the normalisation column), reads the two weight
  blocks whole, and writes rows `8000·t … 8000·t + 7999` of the message array. So what point `t` writes back is block
  `t` of ONE function of the five arrays, the per-edge message

      M[e, j] = (∑ k < 64, X[e, k] · W₁[k, j]  +  ∑ k < 32, E[e, k] · W₂[k, j]) · N[e, 0],

  and since the 100 row blocks cover all 800000 edges, the message array ends holding `M`.
-/
import proofs.«120448_j62766652064045_1_alg».proof.Proof.Gen.KernelIdeal.Frame
import proofs.«120448_j62766652064045_1_alg».proof.Proof.KernelBlock
import proofs.«120448_j62766652064045_1_alg».proof.Proof.Contraction
import Idealize.ShloMosaic.Lib.Pipeline.Value
import Idealize.ShloMosaic.Lib.ValueIdx

noncomputable section

open Idealize.ShloMosaic Idealize.ShloMosaic.TcCoe Idealize.SL.Sem
open Idealize.ShloMosaic.ValueIdx
open Idealize.ShloMosaic.Pipeline (Dat)

namespace Cert.KernelIdeal.Message

open Cert.KernelIdeal Cert.KernelIdeal.Gen Cert.EdgeMessage

variable (m : (ℓ : Loc nD τ sig) → Buf (Elt Ideal) ℓ) (ρ : Dev nD → PrngReg)

theorem hz : (![0, 0] : Fin 2 → Nat) = fun _ => 0 := funext fun a => by fin_cases a <;> rfl

/-- A block's row `p` at point `n` is row `8000·n + p` of the array; its column is the array's (the block index on that
    axis is 0). Plain arithmetic. -/
theorem row_coord (n p r : Nat) (h : r = 8000 * n + p) : n * 8000 + 1 * p = r := by omega
theorem col_coord (s p r : Nat) (h : r = p) : 0 * s + 1 * p = r := by omega

/-- The printed index maps, decided over the grid: the three edge-indexed inputs and the output move one row block per
    point, the two weight blocks stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block as rows of its array -/

/-- Block `t` of the gathered node features is rows `8000·t …` of the array. -/
theorem nodes_block (c : Dev nD) (t : Fin cfg0.N) (y : S8000x64.Idx) (i : S800000x64.Idx)
    (h0 : (i 0).val = 8000 * t.val + (y 0).val) (h1 : (i 1).val = (y 1).val) :
    (iblk m c 0 t : Vec Ideal S8000x64 .bf16) y = (V m c main_v37 : S800000x64.Idx → EReal) i := by
  obtain ⟨e0, e1, -⟩ := idx_facts t
  unfold iblk
  rw [View.read_apply]
  show V m c main_v37 _ = V m c main_v37 _
  congr 1
  funext a
  apply Fin.ext
  match a with
  | ⟨0, _⟩ => show win0_0.index t 0 * 8000 + 1 * (y 0).val = (i 0).val; rw [e0]; exact row_coord _ _ _ h0
  | ⟨1, _⟩ => show win0_0.index t 1 * 64 + 1 * (y 1).val = (i 1).val; rw [e1]; exact col_coord _ _ _ h1

/-- Block `t` of the edge attributes is rows `8000·t …` of the array. -/
theorem attrs_block (c : Dev nD) (t : Fin cfg0.N) (y : S8000x32.Idx) (i : S800000x32.Idx)
    (h0 : (i 0).val = 8000 * t.val + (y 0).val) (h1 : (i 1).val = (y 1).val) :
    (iblk m c 1 t : Vec Ideal S8000x32 .f32) y = (V m c main_arg1 : S800000x32.Idx → EReal) i := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 8000 + 1 * (y 0).val = (i 0).val; rw [e0]; exact row_coord _ _ _ h0
  | ⟨1, _⟩ => show win0_1.index t 1 * 32 + 1 * (y 1).val = (i 1).val; rw [e1]; exact col_coord _ _ _ h1

/-- Block `t` of a column over the 800000 edges is rows `8000·t …` of it, whatever the column holds. -/
theorem column_block_of (t : Fin cfg0.N) (f : S800000x1.Idx → EReal) (y : S8000x1.Idx) (i : S800000x1.Idx)
    (h0 : (i 0).val = 8000 * t.val + (y 0).val) (h1 : (i 1).val = (y 1).val) :
    (((cfg0.win 2).blk t).view.read (Elt Ideal) (f : ((cfg0.win 2).blk t).view.ty.Contents (Elt Ideal)) : Vec Ideal S8000x1 .f32) y = f i := by
  obtain ⟨-, -, -, -, e0, e1, -⟩ := idx_facts t
  rw [View.read_apply]
  show f _ = f _
  congr 1
  funext a
  apply Fin.ext
  match a with
  | ⟨0, _⟩ => show win0_2.index t 0 * 8000 + 1 * (y 0).val = (i 0).val; rw [e0]; exact row_coord _ _ _ h0
  | ⟨1, _⟩ => show win0_2.index t 1 * 1 + 1 * (y 1).val = (i 1).val; rw [e1]; exact col_coord _ _ _ h1

/-- Block `t` of the normalisation column is rows `8000·t …` of the column. -/
theorem norm_block (c : Dev nD) (t : Fin cfg0.N) (y : S8000x1.Idx) (i : S800000x1.Idx)
    (h0 : (i 0).val = 8000 * t.val + (y 0).val) (h1 : (i 1).val = (y 1).val) :
    (iblk m c 2 t : Vec Ideal S8000x1 .f32) y = (V m c main_v29 : S800000x1.Idx → EReal) i :=
  column_block_of t (V m c main_v29) y i h0 h1

/-- The node-feature weight block is the whole of its array at every point. -/
theorem w_nodes_block (c : Dev nD) (t : Fin cfg0.N) (y : S64x64.Idx) :
    (iblk m c 3 t : Vec Ideal S64x64 .f32) y = (V m c main_v38 : S64x64.Idx → EReal) y := by
  obtain ⟨-, -, -, -, -, -, e0, e1, -⟩ := idx_facts t
  unfold iblk
  rw [View.read_apply]
  show V m c main_v38 _ = V m c main_v38 _
  congr 1
  funext a
  apply Fin.ext
  match a with
  | ⟨0, _⟩ => show win0_3.index t 0 * 64 + 1 * (y 0).val = (y 0).val; rw [e0]; exact col_coord _ _ _ rfl
  | ⟨1, _⟩ => show win0_3.index t 1 * 64 + 1 * (y 1).val = (y 1).val; rw [e1]; exact col_coord _ _ _ rfl

/-- The edge-attribute weight block is the whole of its array at every point. -/
theorem w_attrs_block (c : Dev nD) (t : Fin cfg0.N) (y : S32x64.Idx) :
    (iblk m c 4 t : Vec Ideal S32x64 .f32) y = (V m c main_v39 : S32x64.Idx → EReal) y := by
  obtain ⟨-, -, -, -, -, -, -, -, e0, e1, -⟩ := idx_facts t
  unfold iblk
  rw [View.read_apply]
  show V m c main_v39 _ = V m c main_v39 _
  congr 1
  funext a
  apply Fin.ext
  match a with
  | ⟨0, _⟩ => show win0_4.index t 0 * 32 + 1 * (y 0).val = (y 0).val; rw [e0]; exact col_coord _ _ _ rfl
  | ⟨1, _⟩ => show win0_4.index t 1 * 64 + 1 * (y 1).val = (y 1).val; rw [e1]; exact col_coord _ _ _ rfl

/-! ## What a point writes back, and the array after the run -/

/-- The stored value of a point is the message function at the array's index, for ANY five arrays of which the point's
    blocks are the rows `8000·t …` (the weight blocks: the whole arrays). -/
theorem stored_eq_message (t : Fin cfg0.N)
    (X : S800000x64.Idx → EReal) (A : S800000x32.Idx → EReal) (N : S800000x1.Idx → EReal)
    (W₁ : S64x64.Idx → EReal) (W₂ : S32x64.Idx → EReal)
    (x : Vec Ideal S8000x64 .bf16) (a : Vec Ideal S8000x32 .f32) (n : Vec Ideal S8000x1 .f32)
    (w₁ : Vec Ideal S64x64 .f32) (w₂ : Vec Ideal S32x64 .f32)
    (hx : ∀ (y : S8000x64.Idx) (i : S800000x64.Idx), (i 0).val = 8000 * t.val + (y 0).val → (i 1).val = (y 1).val → x y = X i)
    (ha : ∀ (y : S8000x32.Idx) (i : S800000x32.Idx), (i 0).val = 8000 * t.val + (y 0).val → (i 1).val = (y 1).val → a y = A i)
    (hn : ∀ (y : S8000x1.Idx) (i : S800000x1.Idx), (i 0).val = 8000 * t.val + (y 0).val → (i 1).val = (y 1).val → n y = N i)
    (hw₁ : ∀ y, w₁ y = W₁ y) (hw₂ : ∀ y, w₂ y = W₂ y)
    (j : S8000x64.Idx) (i : S800000x64.Idx) (h0 : (i 0).val = 8000 * t.val + (j 0).val) (h1 : (i 1).val = (j 1).val) :
    k0_pay1 (F := Ideal) x a w₁ w₂ n j = message X A N W₁ W₂ i := by
  have hj0 : (j 0).val < 8000 := (j 0).isLt
  have hj1 : (j 1).val < 64 := (j 1).isLt
  have ej : j = ix2 (⟨(j 0).val, hj0⟩ : Fin 8000) (⟨(j 1).val, hj1⟩ : Fin 64) := eq_ix2 (n0 := 8000) (n1 := 64) j
  have ef : feat i = ⟨(j 1).val, hj1⟩ := Fin.ext h1
  refine ((congrArg (k0_pay1 (F := Ideal) x a w₁ w₂ n) ej).trans (Block.stored_apply x a w₁ w₂ n ⟨(j 0).val, hj0⟩ ⟨(j 1).val, hj1⟩)).trans ?_
  unfold message
  rw [ef]
  congr 1
  · congr 1
    · refine Finset.sum_congr rfl fun k _ => ?_
      rw [hx (ix2 ⟨(j 0).val, hj0⟩ k) (ix2 (edge i) k) h0 rfl, hw₁]
    · refine Finset.sum_congr rfl fun k _ => ?_
      rw [ha (ix2 ⟨(j 0).val, hj0⟩ k) (ix2 (edge i) k) h0 rfl, hw₂]
  · exact hn (ix2 ⟨(j 0).val, hj0⟩ (0 : Fin 1)) (ix2 (edge i) (0 : Fin 1)) h0 rfl

/-- The message function of the five arrays as the region finds them. -/
abbrev messageAt (c : Dev nD) : S800000x64.Idx → EReal :=
  message (V m c main_v37) (V m c main_arg1) (V m c main_v29) (V m c main_v38) (V m c main_v39)

/-- Entry `(p, q)` of output block `t` is entry `(8000·t + p, q)` of the array. -/
theorem out_emb (t : Fin cfg0.N) (j : S8000x64.Idx) :
    ((((cfg0.win 5).blk t).view.emb j) 0).val = 8000 * t.val + (j 0).val
    ∧ ((((cfg0.win 5).blk t).view.emb j) 1).val = (j 1).val := by
  obtain ⟨-, -, -, -, -, -, -, -, -, -, e0, e1⟩ := idx_facts t
  constructor
  · show win0_5.index t 0 * 8000 + 1 * (j 0).val = _; rw [e0]; exact row_coord _ _ _ rfl
  · show win0_5.index t 1 * 64 + 1 * (j 1).val = _; rw [e1]; exact col_coord _ _ _ rfl

/-- An array read through output block `t`, at an entry of the block, is the array at the entry's index. -/
theorem read_out (t : Fin cfg0.N) (G : S800000x64.Idx → EReal) (j : S8000x64.Idx) :
    (((cfg0.win 5).blk t).view.read (Elt Ideal) (G : ((cfg0.win 5).blk t).view.ty.Contents (Elt Ideal)) : Vec Ideal S8000x64 .f32) j
      = G (((cfg0.win 5).blk t).view.emb j) := rfl

/-- WHAT POINT `t` WRITES BACK is block `t` of the message function. -/
theorem flushed_eq (c : Dev nD) (t : Fin cfg0.N) :
    (dats m 0 c).flushed 5 t = ((cfg0.win 5).blk t).view.read (Elt Ideal) (messageAt m c) := by
  show (cfg0.win 5).cut (grid0.coords t) ((dats m 0 c).after 5 t) = _
  rw [after0_5]
  unfold out0_5
  rw [View.canon_unit_zero hz]
  simp only [View.ld_unit_zero (S := S8000x64) hz, View.ld_unit_zero (S := S8000x32) hz, View.ld_unit_zero (S := S8000x1) hz,
    View.ld_unit_zero (S := S64x64) hz, View.ld_unit_zero (S := S32x64) hz]
  funext j
  obtain ⟨o0, o1⟩ := out_emb t j
  refine Eq.trans ?_ (read_out t (messageAt m c) j).symm
  exact stored_eq_message t (V m c main_v37) (V m c main_arg1) (V m c main_v29) (V m c main_v38) (V m c main_v39)
    (iblk m c 0 t) (iblk m c 1 t) (iblk m c 2 t) (iblk m c 3 t) (iblk m c 4 t)
    (nodes_block m c t) (attrs_block m c t) (norm_block m c t) (w_nodes_block m c t) (w_attrs_block m c t)
    j (((cfg0.win 5).blk t).view.emb j) o0 o1

/-- An index of the message array is in point `t`'s block iff each coordinate is in the block's range on its axis. -/
theorem mem_blk (t : Fin cfg0.N) (i : S800000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v40).slice (win0_5.rect t)).set ↔ _
  rw [View.set_slice_whole, Rect.mem_set_unit]
  exact Iff.rfl

/-- Every edge's row is in the block of the point `e / 8000`. -/
theorem covered (i : S800000x64.Idx) :
    ∃ t : Fin cfg0.N, (cfg0.win 5).flush t = true ∧ i ∈ ((cfg0.win 5).blk t).view.set := by
  have hi0 : (i 0).val < 800000 := (i 0).isLt
  have hi1 : (i 1).val < 64 := (i 1).isLt
  have hN : cfg0.N = 100 := N_0
  refine ⟨⟨(i 0).val / 8000, by rw [hN]; omega⟩, flush0_5 _, ?_⟩
  rw [mem_blk]
  obtain ⟨-, -, -, -, -, -, -, -, -, -, e0, e1⟩ := idx_facts ⟨(i 0).val / 8000, by rw [hN]; omega⟩
  intro a
  match a with
  | ⟨0, _⟩ =>
    show win0_5.index _ 0 * 8000 ≤ (i 0).val ∧ (i 0).val < win0_5.index _ 0 * 8000 + 8000
    rw [e0]
    show (i 0).val / 8000 * 8000 ≤ (i 0).val ∧ (i 0).val < (i 0).val / 8000 * 8000 + 8000
    generalize (i 0).val = r
    omega
  | ⟨1, _⟩ =>
    show win0_5.index _ 1 * 64 ≤ (i 1).val ∧ (i 1).val < win0_5.index _ 1 * 64 + 64
    rw [e1]
    generalize (i 1).val = r at hi1 ⊢
    omega

/-- THE MESSAGE ARRAY after the run is the message function of the five arrays the region found. -/
theorem final (c : Dev nD) : (dats m 0 c).arrAt 5 cfg0.N = messageAt m c :=
  (dats m 0 c).arrAt_eq_of_cover 5 (messageAt m c) (fun t _ => flushed_eq m c t) covered

end Cert.KernelIdeal.Message

end
-- ==== Proof.KernelHost.lean ====
/-
  The host side of the kernel's program, read back. Before the region the host forms, from the edge list, the degree
  normalisation `d = where(deg > 0, rsqrt deg, 0)` with `deg = (number of edges leaving a node) + 1`, the column
  `d[row e] · d[col e]`, the gathered node features `x[row e]` (after a change of float format, which over the extended
  reals is the identity), and the two row blocks of the weight matrix. After the region it adds every edge's message
  into its target node's row and adds the bias. These are the same operations, with the same dimension numbers, as the
  reference's own: each array the region reads is stated here in the reference's stages.
-/
import proofs.«120448_j62766652064045_1_alg».proof.Proof.Gen.KernelIdeal.Frame
import proofs.«120448_j62766652064045_1_alg».proof.Proof.RefRead
import Idealize.ShloMosaic.Lib.StableHlo.Run
import Idealize.ShloMosaic.Lib.Pipeline.Value

noncomputable section

open Idealize.ShloMosaic Idealize.ShloMosaic.TcCoe Idealize.SL.Sem
open Idealize.ShloMosaic.StableHlo

namespace Cert.KernelIdeal.Host

open Cert.KernelIdeal Cert.KernelIdeal.Gen
open Cert.ReferenceIdeal.ReadP (val_main_v3 val_main_v20 val_main_v28 val_main_v35 val_main_v36 val_main_v42 val_main_v43 val_main_v46)

variable {F : FTy → Type} [FloatOps F]
variable (m : (ℓ : Loc nD τ sig) → Buf (Elt F) ℓ)

/-- The first 64 rows of the weight matrix. -/
theorem weight_nodes (c : Dev nD) :
    V m c main_v38 = extractStridedSlice S64x64 ![0, 0] (m ((c : Thread nD τ).loc main_arg2)) slices_S96x64_S64x64_0_0 := by
  dsimp only [V, V0]
  simp only [hostOps0, hostOps0_1, hostOps0_2, List.flatten_cons, List.flatten_nil, List.append_nil, List.cons_append, List.nil_append]
  after_results_simp <;> rfl

/-- The last 32 rows of the weight matrix. -/
theorem weight_attrs (c : Dev nD) :
    V m c main_v39 = extractStridedSlice S32x64 ![64, 0] (m ((c : Thread nD τ).loc main_arg2)) slices_S96x64_S32x64_64_0 := by
  dsimp only [V, V0]
  simp only [hostOps0, hostOps0_1, hostOps0_2, List.flatten_cons, List.flatten_nil, List.append_nil, List.cons_append, List.nil_append]
  after_results_simp <;> rfl

/-- The gathered node features: the rows `row e` of the node-feature table (after the change of float format). -/
theorem gathered_nodes (c : Dev nD) :
    V m c main_v37 = Host.gather gather_S50000x64_S800000x1_S800000x64_1_0_n_n_0_1_164
      (truncf .bf16 (m ((c : Thread nD τ).loc main_arg0)) bitsLt_bf16_f32) (val_main_v35 (F := F) (m ((c : Thread nD τ).loc main_arg4))) := by
  dsimp only [V, V0]
  simp only [hostOps0, hostOps0_1, hostOps0_2, List.flatten_cons, List.flatten_nil, List.append_nil, List.cons_append, List.nil_append]
  after_results_simp <;> rfl

/-- The normalisation column: the product of the two gathered degree factors, reshaped to a column. -/
theorem norm_column (c : Dev nD) :
    V m c main_v29 = shapeCast S800000x1 (mulf (val_main_v20 (F := F) (m ((c : Thread nD τ).loc main_arg4))) (val_main_v28 (F := F) (m ((c : Thread nD τ).loc main_arg4)))) shapeCasts_S800000_S800000x1 := by
  dsimp only [V, V0]
  simp only [hostOps0, hostOps0_1, hostOps0_2, List.flatten_cons, List.flatten_nil, List.append_nil, List.cons_append, List.nil_append]
  after_results_simp <;> rfl

/-- The target node of every edge, as the host has it before the region. -/
theorem targets (c : Dev nD) :
    V m c main_v3 = val_main_v3 (F := F) (m ((c : Thread nD τ).loc main_arg4)) := by
  dsimp only [V, V0]
  simp only [hostOps0, hostOps0_1, hostOps0_2, List.flatten_cons, List.flatten_nil, List.append_nil, List.cons_append, List.nil_append]
  after_results_simp <;> rfl

/-- The program's result: every edge's message added into its target node's row, plus the bias. -/
theorem result_eq (c : Dev nD) :
    Pipeline.afterTail₀ cfgs (dats m) 0 (V0 m) [hostOps1] c main_v46
      = addf (Host.scatterAdd scatter_S50000x64_S800000x1_S800000x64_1_0_0_1 (val_main_v42 (F := F))
            (val_main_v43 (F := F) (m ((c : Thread nD τ).loc main_arg4))) ((dats m 0 c).arrAt 5 cfg0.N))
          (val_main_v46 (F := F) (m ((c : Thread nD τ).loc main_arg3))) := by
  unfold Pipeline.afterTail₀
  show StableHlo.after hostOps1 _ (Proc.devRef .tc main_v46) = _
  after_results
  have e3 : Pipeline.withArrays (cfgs 0).spec c (V0 m c) (fun w => (dats m 0 c).arrAt w (cfgs 0).N) (Proc.devRef .tc main_v3)
      = val_main_v3 (F := F) (m ((c : Thread nD τ).loc main_arg4)) :=
    (Pipeline.withArrays_of_ne _ c (V0 m c) _ main_v3 (by exact (by decide : ∀ w, Pipeline.arrRef spec0 w ≠ main_v3))).trans (targets m c)
  have eb : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have em : Pipeline.withArrays (cfgs 0).spec c (V0 m c) (fun w => (dats m 0 c).arrAt w (cfgs 0).N) (Proc.devRef .tc main_v40)
      = (dats m 0 c).arrAt 5 cfg0.N :=
    Pipeline.withArrays_arr spec0 launch0.win.arr_inj c _ _ 5
  rw [e3, eb, em]
  rfl

end Cert.KernelIdeal.Host

end
-- ==== Proof.LayoutReads.lean ====
/-
  Three layout reads, each at one index and over an arbitrary array: a vector over the 800000 edges reshaped to a
  column, read at a row; and the first 64 and the last 32 rows of a 96-row matrix, read at a row and a column.
-/
import Idealize.ShloMosaic.Lib.Pipeline.Value
import Idealize.ShloMosaic.Lib.ValueIdx

noncomputable section

open Idealize.ShloMosaic Idealize.ShloMosaic.ValueIdx

namespace Cert.EdgeMessage

variable {α : Type}

/-- A vector over the edges reshaped to a column, at row `e`, is the vector at `e`. -/
theorem column_apply (hN : (⟨1, ![800000]⟩ : Shape).ShapeCasts ⟨2, ![800000, 1]⟩)
    (u : (⟨1, ![800000]⟩ : Shape).Idx → α) (e : Fin 800000) (k : (⟨1, ![800000]⟩ : Shape).Idx) (hk : (k 0).val = e.val) :
    shapeCast ⟨2, ![800000, 1]⟩ u hN (ix2 e (0 : Fin 1)) = u k :=
  shapeCast_apply u hN (ix2 e (0 : Fin 1)) k
    (by rewrite [Shape.rowMajor_val_two, Shape.rowMajor_val_one]; show (k 0).val = e.val * 1 + 0; omega)

/-- Rows `0 … 63` of a 96-row matrix, at `(k, j)`, are the matrix at row `k`. -/
theorem first_rows_apply (h : (⟨2, ![96, 64]⟩ : Shape).Slices ![0, 0] ⟨2, ![64, 64]⟩)
    (W : (⟨2, ![96, 64]⟩ : Shape).Idx → α) (k j : Fin 64) (r : (⟨2, ![96, 64]⟩ : Shape).Idx)
    (hr0 : (r 0).val = k.val) (hr1 : (r 1).val = j.val) :
    extractStridedSlice ⟨2, ![64, 64]⟩ ![0, 0] W h (ix2 k j) = W r :=
  extractStridedSlice_apply ![0, 0] W h (ix2 k j) r (fun a => match a with
    | ⟨0, _⟩ => by show (r 0).val = 0 + k.val; omega
    | ⟨1, _⟩ => by show (r 1).val = 0 + j.val; omega)

/-- Rows `64 … 95` of a 96-row matrix, at `(k, j)`, are the matrix at row `64 + k`. -/
theorem last_rows_apply (h : (⟨2, ![96, 64]⟩ : Shape).Slices ![64, 0] ⟨2, ![32, 64]⟩)
    (W : (⟨2, ![96, 64]⟩ : Shape).Idx → α) (k : Fin 32) (j : Fin 64) (r : (⟨2, ![96, 64]⟩ : Shape).Idx)
    (hr0 : (r 0).val = 64 + k.val) (hr1 : (r 1).val = j.val) :
    extractStridedSlice ⟨2, ![32, 64]⟩ ![64, 0] W h (ix2 k j) = W r :=
  extractStridedSlice_apply ![64, 0] W h (ix2 k j) r (fun a => match a with
    | ⟨0, _⟩ => by show (r 0).val = 64 + k.val; omega
    | ⟨1, _⟩ => by show (r 1).val = 0 + j.val; omega)

end Cert.EdgeMessage

end
-- ==== Proof.MessageForms.lean ====
/-
  The reference's form of the per-edge message is the function `message`. Over arbitrary arrays: `g` the gathered node
  features, `A` the edge attributes, `W` the whole 96-row weight matrix, `u` and `v` the two gathered normalisation
  factors over the edges. The reference's value at an index `i` of edge `e`,

      u[e] · 1 · v[e] · (∑ k < 64, g[e, k] · W[k, j]  +  ∑ k < 32, A[e, k] · W[64 + k, j]),

  is `message g A (column of u · v) (rows 0 … 63 of W) (rows 64 … 95 of W)` at `i`: the unit factor drops, the product
  commutes, and each layout operation is read at its index.
-/
import proofs.«120448_j62766652064045_1_alg».proof.Proof.Contraction
import proofs.«120448_j62766652064045_1_alg».proof.Proof.LayoutReads
import Idealize.ShloMosaic.PureOps.Ideal

noncomputable section

open Idealize.ShloMosaic Idealize.ShloMosaic.ValueIdx

namespace Cert.EdgeMessage

theorem message_of_joined
    (g : (⟨2, ![800000, 64]⟩ : Shape).Idx → EReal) (A : (⟨2, ![800000, 32]⟩ : Shape).Idx → EReal)
    (W : (⟨2, ![96, 64]⟩ : Shape).Idx → EReal) (u v : FVec Ideal ⟨1, ![800000]⟩ .f32)
    (hN : (⟨1, ![800000]⟩ : Shape).ShapeCasts ⟨2, ![800000, 1]⟩)
    (h₁ : (⟨2, ![96, 64]⟩ : Shape).Slices ![0, 0] ⟨2, ![64, 64]⟩) (h₂ : (⟨2, ![96, 64]⟩ : Shape).Slices ![64, 0] ⟨2, ![32, 64]⟩)
    (i : (⟨2, ![800000, 64]⟩ : Shape).Idx) (e' : (⟨1, ![800000]⟩ : Shape).Idx) (he : (e' 0).val = (edge i).val)
    (r₁ : Fin 64 → (⟨2, ![96, 64]⟩ : Shape).Idx) (r₂ : Fin 32 → (⟨2, ![96, 64]⟩ : Shape).Idx)
    (hr₁ : ∀ k, ((r₁ k) 0).val = k.val ∧ ((r₁ k) 1).val = (feat i).val)
    (hr₂ : ∀ k, ((r₂ k) 0).val = 64 + k.val ∧ ((r₂ k) 1).val = (feat i).val) :
    u e' * 1 * v e' * (∑ k : Fin 64, g (ix2 (edge i) k) * W (r₁ k) + ∑ k : Fin 32, A (ix2 (edge i) k) * W (r₂ k))
      = message g A (shapeCast ⟨2, ![800000, 1]⟩ (mulf (F := Ideal) (φ := .f32) u v) hN)
          (extractStridedSlice ⟨2, ![64, 64]⟩ ![0, 0] W h₁) (extractStridedSlice ⟨2, ![32, 64]⟩ ![64, 0] W h₂) i := by
  unfold message
  rw [column_apply hN _ (edge i) e' he, mul_one, mul_comm]
  have en : mulf (F := Ideal) (φ := .f32) u v e' = u e' * v e' := rfl
  rw [en]
  refine congrArg (· * (u e' * v e')) (congrArg₂ (· + ·) ?_ ?_)
  · exact Finset.sum_congr rfl fun k _ =>
      congrArg (g (ix2 (edge i) k) * ·) (first_rows_apply h₁ W k (feat i) (r₁ k) (hr₁ k).1 (hr₁ k).2).symm
  · exact Finset.sum_congr rfl fun k _ =>
      congrArg (A (ix2 (edge i) k) * ·) (last_rows_apply h₂ W k (feat i) (r₂ k) (hr₂ k).1 (hr₂ k).2).symm

end Cert.EdgeMessage

end
-- ==== Proof.RefMessage.lean ====
/-
  The reference's per-edge message, read at an index. The reference multiplies the normalisation `d[row e] · 1 · d[col e]`
  into the contraction of the 96 joined features `[x[row e], a[e]]` against the whole weight matrix. Read at edge `e` and
  output feature `j`, the contraction splits at feature 64 into the node-feature part against the first 64 weight rows
  and the attribute part against the last 32; the constant `1` drops out; and the product commutes. So the reference's
  message is the function `message` of: the gathered node features, the edge attributes, the column
  `d[row e] · d[col e]`, and the two row blocks of the weight matrix.
-/
import proofs.«120448_j62766652064045_1_alg».proof.Proof.RefRead
import proofs.«120448_j62766652064045_1_alg».proof.Proof.Contraction
import proofs.«120448_j62766652064045_1_alg».proof.Proof.MessageForms
import Idealize.ShloMosaic.Lib.Pipeline.Value
import Idealize.ShloMosaic.Lib.ValueIdx
import Idealize.ShloMosaic.Lib.IdealHost
import Idealize.ShloMosaic.PureOps.Ideal.Laws

noncomputable section

open Idealize.ShloMosaic Idealize.ShloMosaic.TcCoe Idealize.SL.Sem
open Idealize.ShloMosaic.ValueIdx

namespace Cert.ReferenceIdeal.Message

open Cert.ReferenceIdeal Cert.ReferenceIdeal.Gen Cert.ReferenceIdeal.ReadP Cert.EdgeMessage

variable (x0 : (⟨S50000x64, .f32⟩ : BufTy).Contents (Elt Ideal)) (x1 : (⟨S800000x32, .f32⟩ : BufTy).Contents (Elt Ideal))
  (x2 : (⟨S96x64, .f32⟩ : BufTy).Contents (Elt Ideal)) (x4 : (⟨S2x800000, .i32⟩ : BufTy).Contents (Elt Ideal))

/-- Joined feature `k < 64` of edge `e` is the gathered node feature `k`. -/
theorem joined_node (i : S800000x64.Idx) (k : Fin 64) :
    val_main_v37 (F := Ideal) x0 x1 x4 (lidx_main_v38 i ⟨k.val, by have := k.isLt; omega⟩)
      = val_main_v36 (F := Ideal) x0 x4 (ix2 (edge i) k) := by
  unfold val_main_v37
  exact concatenate_pair_apply_left 1 _ _ concatenates_S800000x64_S800000x32_S800000x96_d1 _ rfl (ix2 (edge i) k)
    (fun b => match b with
      | ⟨0, _⟩ => rfl
      | ⟨1, _⟩ => rfl)

/-- Joined feature `64 + k` of edge `e` is the edge's attribute `k`. -/
theorem joined_attr (i : S800000x64.Idx) (k : Fin 32) :
    val_main_v37 (F := Ideal) x0 x1 x4 (lidx_main_v38 i ⟨64 + k.val, by have := k.isLt; omega⟩)
      = x1 (ix2 (edge i) k) := by
  unfold val_main_v37
  exact concatenate_pair_apply_right 1 _ _ concatenates_S800000x64_S800000x32_S800000x96_d1 _ rfl rfl (ix2 (edge i) k)
    (fun b hb => match b with
      | ⟨0, _⟩ => rfl
      | ⟨1, _⟩ => absurd rfl hb)
    (by show k.val + 64 = 64 + k.val; omega)

/-- The reference's normalisation at an index of the message array: `d[row e] · 1 · d[col e]` at the index's edge. -/
theorem norm_apply (i : S800000x64.Idx) :
    val_main_v40 (F := Ideal) x4 i
      = val_main_v20 (F := Ideal) x4 (idx_main_v39 (idx_main_v40 i)) * 1
          * val_main_v28 (F := Ideal) x4 (idx_main_v39 (idx_main_v40 i)) := by
  rw [val_main_v40_apply, val_main_v39_apply, val_main_v29_apply, val_main_v21_apply, val_main_v4_apply, val_main_cst_apply]
  simp only [Ideal.mulf_def, Ideal.ofBits_def, Ideal.ofBits_one_f32]

/-- THE REFERENCE'S MESSAGE is `message` of the gathered node features, the edge attributes, the column of products of
    the two gathered normalisation factors, and the two row blocks of the weight matrix. The three layout facts are
    taken as hypotheses: the statement is about the values, whatever evidence names the layouts. -/
theorem message_eq (hN : S800000.ShapeCasts ⟨2, ![800000, 1]⟩) (h₁ : S96x64.Slices ![0, 0] ⟨2, ![64, 64]⟩)
    (h₂ : S96x64.Slices ![64, 0] ⟨2, ![32, 64]⟩) :
    val_main_v41 (F := Ideal) x0 x1 x2 x4
      = message (val_main_v36 (F := Ideal) x0 x4) x1
          (shapeCast ⟨2, ![800000, 1]⟩ (mulf (F := Ideal) (φ := .f32) (val_main_v20 (F := Ideal) x4) (val_main_v28 (F := Ideal) x4)) hN)
          (extractStridedSlice ⟨2, ![64, 64]⟩ ![0, 0] x2 h₁) (extractStridedSlice ⟨2, ![32, 64]⟩ ![64, 0] x2 h₂) := by
  funext i
  rw [val_main_v41_apply, norm_apply, val_main_v38_apply, sum_split_64_32]
  simp only [joined_node, joined_attr, Ideal.mulf_def]
  exact message_of_joined (val_main_v36 (F := Ideal) x0 x4) x1 x2 (val_main_v20 (F := Ideal) x4) (val_main_v28 (F := Ideal) x4)
    hN h₁ h₂ i (idx_main_v39 (idx_main_v40 i)) rfl
    (fun k => ridx_main_v38 i ⟨k.val, Nat.lt_of_lt_of_le k.isLt (by decide)⟩)
    (fun k => ridx_main_v38 i ⟨64 + k.val, Nat.add_lt_add_left k.isLt 64⟩)
    (fun k => ⟨rfl, rfl⟩) (fun k => ⟨rfl, rfl⟩)

end Cert.ReferenceIdeal.Message

end
-- ==== Proof.lean ====
/-
  The graph-convolution kernel against its reference, over the extended reals.

  Both programs form, from the edge list, the symmetric degree normalisation `d` and the per-edge factor
  `d[row e] · d[col e]` (the reference with an extra factor `1`, the unit edge weight), gather the source node's features of
  every edge, compute a per-edge message, add every message into its target node's row, and add the bias. They differ in
  the message only. The kernel computes it 8000 edges at a time as
  `(x[row e] · W[0:64] + a[e] · W[64:96]) · n[e]`, in two matrix products; the reference as
  `n[e] · ([x[row e], a[e]] · W)`, one product over the 96 joined features. A sum over 96 terms split at 64 is the
  same sum, `· 1` changes nothing, and multiplication commutes: no finiteness is used, so the precondition is never
  opened. Changes of float format are the identity over the extended reals.

  The three frames: the kernel's two are its region run at every grid point between the host operations; the
  reference's is its run with the result dropped. The idealization rewrote nothing, so `preserves` is trivial.
-/
import proofs.«120448_j62766652064045_1_alg».proof.Defs
import proofs.«120448_j62766652064045_1_alg».proof.Proof.Gen.Kernel
import proofs.«120448_j62766652064045_1_alg».proof.Proof.Gen.Kernel.Skeleton
import proofs.«120448_j62766652064045_1_alg».proof.Proof.Gen.Kernel.Launch
import proofs.«120448_j62766652064045_1_alg».proof.Proof.Gen.Kernel.Points
import proofs.«120448_j62766652064045_1_alg».proof.Proof.Gen.Kernel.Frame
import proofs.«120448_j62766652064045_1_alg».proof.Proof.Gen.KernelIdeal
import proofs.«120448_j62766652064045_1_alg».proof.Proof.Gen.KernelIdeal.Skeleton
import proofs.«120448_j62766652064045_1_alg».proof.Proof.Gen.KernelIdeal.Launch
import proofs.«120448_j62766652064045_1_alg».proof.Proof.Gen.KernelIdeal.Points
import proofs.«120448_j62766652064045_1_alg».proof.Proof.Gen.KernelIdeal.Frame
import proofs.«120448_j62766652064045_1_alg».proof.Proof.Gen.ReferenceIdeal
import proofs.«120448_j62766652064045_1_alg».proof.Proof.Gen.Pre_finite_inputs
import proofs.«120448_j62766652064045_1_alg».proof.Proof.RefRun
import proofs.«120448_j62766652064045_1_alg».proof.Proof.RefRead
import proofs.«120448_j62766652064045_1_alg».proof.Proof.KernelArray
import proofs.«120448_j62766652064045_1_alg».proof.Proof.KernelHost
import proofs.«120448_j62766652064045_1_alg».proof.Proof.RefMessage
import Idealize.ShloMosaic.Adequacy
import Idealize.ShloMosaic.Init

noncomputable section

open Idealize.ShloMosaic Idealize.ShloMosaic.TcCoe Idealize.SL.Sem

/-! ## The kernel's run with its result named -/

namespace Cert.KernelIdeal.Result

open Cert.KernelIdeal Cert.KernelIdeal.Gen

variable {F : FTy → Type} [FloatOps F]
variable (m : (ℓ : Loc nD τ sig) → Buf (Elt F) ℓ) (ρ : Dev nD → PrngReg)

/-- What the program's result buffer holds after the run: the host operations after the region applied to the message
    array the region left. -/
abbrev result (c : Dev nD) : Buf (Elt F) ((c.tc : Thread nD τ).loc main_v46) :=
  Pipeline.afterTail₀ cfgs (dats m) 0 (V0 m) [hostOps1] c main_v46

/-- Every weakly fair execution terminates with the result buffer at `result` and the arguments unchanged: the frame
    run's post read at the result buffer (no window's array) and at the argument arrays. -/
theorem run : θ_run defs (onTc (τ := τ) (main (F := F))) ⟨m, fun _ => 0, ρ⟩ (fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).2 main_v46 (Pipeline.mem_restRefs_of main_v46 (by decide) (by decide)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Result

/-! ## The two results are one function of the arguments -/

namespace Cert.Proof

open Cert.EdgeMessage

/-- The kernel's result, of arguments `m`, is the reference's composed term of the same arguments: both add the per-edge
    messages into the target rows and add the bias, and the two messages are the one function `message`. -/
theorem result_eq (m : (ℓ : Loc Cert.KernelIdeal.nD Cert.KernelIdeal.τ Cert.KernelIdeal.sig) → Buf (Elt Ideal) ℓ)
    (c : Dev Cert.KernelIdeal.nD) :
    Cert.ReferenceIdeal.ReadP.val_main_v47 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Result.result m c := by
  unfold Cert.KernelIdeal.Result.result
  rw [Cert.KernelIdeal.Host.result_eq, Cert.KernelIdeal.Message.final]
  unfold Cert.KernelIdeal.Message.messageAt
  rw [Cert.KernelIdeal.Host.gathered_nodes, Cert.KernelIdeal.Host.norm_column, Cert.KernelIdeal.Host.weight_nodes,
    Cert.KernelIdeal.Host.weight_attrs, Cert.KernelIdeal.Gen.V_main_arg1]
  unfold Cert.ReferenceIdeal.ReadP.val_main_v47 Cert.ReferenceIdeal.ReadP.val_main_v44
  rw [Cert.ReferenceIdeal.Message.message_eq _ _ _ _ Cert.KernelIdeal.Gen.shapeCasts_S800000_S800000x1
    Cert.KernelIdeal.Gen.slices_S96x64_S64x64_0_0 Cert.KernelIdeal.Gen.slices_S96x64_S32x64_64_0]
  rfl

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the same result: the kernel's named result. -/
theorem algebraic : Cert.algebraic_KernelIdeal_ReferenceIdeal := by
  intro m ρ m' ρ' _ hagree
  refine ⟨fun c => Cert.KernelIdeal.Result.result m c, Cert.KernelIdeal.Result.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v47_eq]
  obtain ⟨a0, a1, a2, a3, a4⟩ := hagree c
  rw [a0, a1, a2, a3, a4]
  exact result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
